-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S800000 : Shape := ⟨1, ![800000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x512 .f32) (main_arg1 : FVec F S512x256 .f32) (main_arg2 : FVec F S256 .f32) (main_arg3 : FVec F S256x128 .f32) (main_arg4 : FVec F S128 .f32) (main_arg5 : IVec S800000 32) (main_arg6 : IVec S800000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_v13 main_v16
-- ==== Kernel.lean ====
abbrev S50000x512 : Shape := ⟨2, ![50000, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x256 : Shape := ⟨2, ![50000, 256]⟩
abbrev S2000x512 : Shape := ⟨2, ![2000, 512]⟩
abbrev S2000x1 : Shape := ⟨2, ![2000, 1]⟩
abbrev S2000x256 : Shape := ⟨2, ![2000, 256]⟩
abbrev S800000x256 : Shape := ⟨2, ![800000, 256]⟩
abbrev S1x256 : Shape := ⟨2, ![1, 256]⟩
abbrev S50000x128 : Shape := ⟨2, ![50000, 128]⟩
abbrev S2000x128 : Shape := ⟨2, ![2000, 128]⟩
abbrev S800000x128 : Shape := ⟨2, ![800000, 128]⟩
abbrev S1x128 : Shape := ⟨2, ![1, 128]⟩

abbrev nBuf : Space → Nat
  | .hbm => 72
  | .vmem => 14
  | .smem => 0
  | _ => 0

abbrev bufTy : (tb : Table) → Fin (tcTables nBuf tb) → BufTy
  | .hbm, ⟨0, _⟩ => ⟨S50000x512, .f32⟩
  | .hbm, ⟨1, _⟩ => ⟨S512x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000, .f32⟩
  | .hbm, ⟨28, _⟩ => ⟨S50000x1, .f32⟩
  | .hbm, ⟨29, _⟩ => ⟨S512x256, .bf16⟩
  | .hbm, ⟨30, _⟩ => ⟨S256x128, .bf16⟩
  | .hbm, ⟨31, _⟩ => ⟨S50000x256, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x256, .f32⟩
  | .hbm, ⟨41, _⟩ => ⟨S_, .f32⟩
  | .hbm, ⟨42, _⟩ => ⟨S50000x256, .f32⟩
  | .hbm, ⟨43, _⟩ => ⟨S800000x1, .i32⟩
  | .hbm, ⟨44, _⟩ => ⟨S50000x256, .f32⟩
  | .hbm, ⟨45, _⟩ => ⟨S50000x256, .f32⟩
  | .hbm, ⟨46, _⟩ => ⟨S50000x256, .f32⟩
  | .hbm, ⟨47, _⟩ => ⟨S1x256, .f32⟩
  | .hbm, ⟨48, _⟩ => ⟨S50000x256, .f32⟩
  | .hbm, ⟨49, _⟩ => ⟨S50000x256, .f32⟩
  | .hbm, ⟨50, _⟩ => ⟨S_, .f32⟩
  | .hbm, ⟨51, _⟩ => ⟨S50000x256, .f32⟩
  | .hbm, ⟨52, _⟩ => ⟨S50000x256, .f32⟩
  | .hbm, ⟨53, _⟩ => ⟨S50000x128, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .local _ .vmem, ⟨0, _⟩ => ⟨S2000x512, .f32⟩
  | .local _ .vmem, ⟨1, _⟩ => ⟨S2000x512, .f32⟩
  | .local _ .vmem, ⟨2, _⟩ => ⟨S2000x1, .f32⟩
  | .local _ .vmem, ⟨3, _⟩ => ⟨S2000x1, .f32⟩
  | .local _ .vmem, ⟨4, _⟩ => ⟨S512x256, .bf16⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S256x128, .bf16⟩
  | .local _ .vmem, ⟨12, _⟩ => ⟨S2000x128, .f32⟩
  | .local _ .vmem, ⟨13, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call2_cst : Ref sig .tc := ⟨.hbm, 50, rfl⟩
abbrev main_call2_v0 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x512 : S2000x1.Broadcasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  broadcasts_S2000x1_S2000x256 : S2000x1.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .bf16 = 32 ∨ (Rect.block (s := S256x128) S256x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x512 : Shape := ⟨2, ![50000, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x256 : Shape := ⟨2, ![50000, 256]⟩
abbrev S800000x256 : Shape := ⟨2, ![800000, 256]⟩
abbrev S1x256 : Shape := ⟨2, ![1, 256]⟩
abbrev S50000x128 : Shape := ⟨2, ![50000, 128]⟩
abbrev S800000x128 : Shape := ⟨2, ![800000, 128]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000, .f32⟩
  | .hbm, ⟨28, _⟩ => ⟨S50000x1, .f32⟩
  | .hbm, ⟨29, _⟩ => ⟨S50000x512, .f32⟩
  | .hbm, ⟨30, _⟩ => ⟨S50000x512, .f32⟩
  | .hbm, ⟨31, _⟩ => ⟨S50000x256, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x256, .f32⟩
  | .hbm, ⟨41, _⟩ => ⟨S_, .f32⟩
  | .hbm, ⟨42, _⟩ => ⟨S50000x256, .f32⟩
  | .hbm, ⟨43, _⟩ => ⟨S800000x1, .i32⟩
  | .hbm, ⟨44, _⟩ => ⟨S50000x256, .f32⟩
  | .hbm, ⟨45, _⟩ => ⟨S50000x256, .f32⟩
  | .hbm, ⟨46, _⟩ => ⟨S50000x256, .f32⟩
  | .hbm, ⟨47, _⟩ => ⟨S1x256, .f32⟩
  | .hbm, ⟨48, _⟩ => ⟨S50000x256, .f32⟩
  | .hbm, ⟨49, _⟩ => ⟨S50000x256, .f32⟩
  | .hbm, ⟨50, _⟩ => ⟨S_, .f32⟩
  | .hbm, ⟨51, _⟩ => ⟨S50000x256, .f32⟩
  | .hbm, ⟨52, _⟩ => ⟨S50000x256, .f32⟩
  | .hbm, ⟨53, _⟩ => ⟨S50000x256, .f32⟩
  | .hbm, ⟨54, _⟩ => ⟨S50000x256, .f32⟩
  | .hbm, ⟨55, _⟩ => ⟨S50000x128, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call2_cst : Ref sig .tc := ⟨.hbm, 50, rfl⟩
abbrev main_call2_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_6 : Ref sig .tc := ⟨.hbm, 56, rfl⟩
abbrev main_v35 : Ref sig .tc := ⟨.hbm, 57, rfl⟩
abbrev main_v36 : Ref sig .tc := ⟨.hbm, 58, rfl⟩
abbrev main_c_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Glue.lean ====
/-
  The host side of the kernel program: what each buffer holds at the boundaries between the stretches of host
  operations and the two pallas_calls, as a function of the arguments.

  `degreeNorm idx` is the normaliser column of an index list: count how often each of the 50000 nodes occurs among the
  800000 entries (a scatter-add of ones into zeros), clip the count below at 1, take the inverse square root, and lay the
  50000 numbers out as a column. `aggregate… h nd b src dst` is one layer's sparse half: gather the rows `h[src]` (a
  negative index wrapped by 50000 first), scatter-add them into zeros at `dst`, scale row r by `nd r` and add the bias
  `b` to every row. `relu` is the maximum with zero. With the two dense products (Spec) these make the whole network:
      out = aggregate128 (product2 (relu (aggregate256 (product1 x ns w1) nd b1 src dst)) ns w2) nd b2 src dst,
      ns = degreeNorm src, nd = degreeNorm dst.
-/
import proofs.«180490_j64493228917351_1_alg».proof.Proof.Gen.KernelIdeal.Frame
import Idealize.ShloMosaic.Lib.StableHlo.Run

set_option maxRecDepth 16384

noncomputable section

namespace Cert.KernelIdeal.Glue

open Cert.KernelIdeal Cert.KernelIdeal.Gen Idealize.ShloMosaic Idealize.ShloMosaic.TcCoe Idealize.SL.Sem Idealize.ShloMosaic.StableHlo

variable {F : FTy → Type} [FloatOps F]

/-- The normaliser column of an index list: (max 1 (number of occurrences of each node))^(-1/2). -/
def degreeNorm (idx : (⟨S800000, .i32⟩ : BufTy).Contents (Elt F)) : (⟨S50000x1, .f32⟩ : BufTy).Contents (Elt F) :=
  broadcastInDim S50000x1 ![0] bcast_S50000_S50000x1_0 (Host.rsqrt (maximumf
    (broadcastInDim S50000 ![] bcast_S_S50000 (id (constant S_ .f32 0x3F800000#32)))
    (Host.scatterAdd scatter_S50000_S800000x1_S800000_n_0_0_1
      (broadcastInDim S50000 ![] bcast_S_S50000 (constant S_ .f32 0x00000000#32))
      (broadcastInDim S800000x1 ![0] bcast_S800000_S800000x1_0 idx)
      (broadcastInDim S800000 ![] bcast_S_S800000 (constant S_ .f32 0x3F800000#32)))))

/-- A gather index wrapped as numpy does: a negative entry has 50000 added. -/
def wrapIndex (src : (⟨S800000, .i32⟩ : BufTy).Contents (Elt F)) : (⟨S800000, .i32⟩ : BufTy).Contents (Elt F) :=
  select (cmpi .slt src (broadcastInDim S800000 ![] bcast_S_S800000 (constantI S_ 32 0#32)))
    (addi src (broadcastInDim S800000 ![] bcast_S_S800000 (constantI S_ 32 50000#32))) src

/-- Layer 1's sparse half: rows gathered at `src`, summed into `dst`, scaled by the in-degree normaliser, plus bias. -/
def aggregate256 (h : (⟨S50000x256, .f32⟩ : BufTy).Contents (Elt F)) (nd : (⟨S50000x1, .f32⟩ : BufTy).Contents (Elt F))
    (b : (⟨S256, .f32⟩ : BufTy).Contents (Elt F)) (src dst : (⟨S800000, .i32⟩ : BufTy).Contents (Elt F)) :
    (⟨S50000x256, .f32⟩ : BufTy).Contents (Elt F) :=
  addf (mulf (Host.scatterAdd scatter_S50000x256_S800000x1_S800000x256_1_0_0_1
      (broadcastInDim S50000x256 ![] bcast_S_S50000x256 (constant S_ .f32 0x00000000#32))
      (broadcastInDim S800000x1 ![0] bcast_S800000_S800000x1_0 dst)
      (Host.gather gather_S50000x256_S800000x1_S800000x256_1_0_n_n_0_1_1256 h (broadcastInDim S800000x1 ![0] bcast_S800000_S800000x1_0 (wrapIndex src))))
    (broadcastInDim S50000x256 ![0, 1] bcast_S50000x1_S50000x256_0_1 nd))
    (broadcastInDim S50000x256 ![0, 1] bcast_S1x256_S50000x256_0_1 (broadcastInDim S1x256 ![1] bcast_S256_S1x256_1 b))

/-- Layer 2's sparse half. -/
def aggregate128 (h : (⟨S50000x128, .f32⟩ : BufTy).Contents (Elt F)) (nd : (⟨S50000x1, .f32⟩ : BufTy).Contents (Elt F))
    (b : (⟨S128, .f32⟩ : BufTy).Contents (Elt F)) (src dst : (⟨S800000, .i32⟩ : BufTy).Contents (Elt F)) :
    (⟨S50000x128, .f32⟩ : BufTy).Contents (Elt F) :=
  addf (mulf (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 h (broadcastInDim S800000x1 ![0] bcast_S800000_S800000x1_0 (wrapIndex src))))
    (broadcastInDim S50000x128 ![0, 1] bcast_S50000x1_S50000x128_0_1 nd))
    (broadcastInDim S50000x128 ![0, 1] bcast_S1x128_S50000x128_0_1 (broadcastInDim S1x128 ![1] bcast_S128_S1x128_1 b))

/-- The activation between the layers. -/
def relu (x : (⟨S50000x256, .f32⟩ : BufTy).Contents (Elt F)) : (⟨S50000x256, .f32⟩ : BufTy).Contents (Elt F) :=
  maximumf x (broadcastInDim S50000x256 ![] bcast_S_S50000x256 (constant S_ .f32 0x00000000#32))

variable (m : (ℓ : Loc nD τ sig) → Buf (Elt F) ℓ) (ρ : Dev nD → PrngReg)

/-- One buffer read after the five opening stretches: every operation's result at its own buffer is its function of
    its operands' buffers, and any other buffer is untouched. -/
local macro "read_after_opening" : tactic => `(tactic| (
  show after hostOps0_4 (after hostOps0_3 (after hostOps0_2 (after hostOps0_1 (after hostOps0 (W0 _ _ _))))) _ = _
  dsimp only [hostOps0, hostOps0_1, hostOps0_2, hostOps0_3, hostOps0_4]
  after_results <;> rfl))

/-- One buffer read after the stretches between the two calls. -/
local macro "read_after_middle" : tactic => `(tactic| (
  show after hostOps1_1 (after hostOps1 (W6 _ _ _)) _ = _
  dsimp only [hostOps1, hostOps1_1]
  after_results <;> rfl))

/-! ## At the first call's entry (after the five opening stretches of host operations) -/

/-- The node features are untouched. -/
theorem entry0_features (c : Dev nD) : W5 m ρ c (Proc.devRef .tc main_arg0) = m ((c : Thread nD τ).loc main_arg0) := by
  read_after_opening
/-- The out-degree normaliser column, from the source indices. -/
theorem entry0_norm_src (c : Dev nD) : W5 m ρ c (Proc.devRef .tc main_v10) = degreeNorm (m ((c : Thread nD τ).loc main_arg5)) := by
  read_after_opening
/-- The in-degree normaliser column, from the destination indices. -/
theorem entry0_norm_dst (c : Dev nD) : W5 m ρ c (Proc.devRef .tc main_v12) = degreeNorm (m ((c : Thread nD τ).loc main_arg6)) := by
  read_after_opening
/-- The first weight matrix, narrowed to bf16. -/
theorem entry0_weight1 (c : Dev nD) : W5 m ρ c (Proc.devRef .tc main_v13) = truncf .bf16 (m ((c : Thread nD τ).loc main_arg1)) bitsLt_bf16_f32 := by
  read_after_opening
/-- The second weight matrix, narrowed to bf16. -/
theorem entry0_weight2 (c : Dev nD) : W5 m ρ c (Proc.devRef .tc main_v14) = truncf .bf16 (m ((c : Thread nD τ).loc main_arg3)) bitsLt_bf16_f32 := by
  read_after_opening
/-- The two biases and the two index lists are untouched. -/
theorem entry0_bias1 (c : Dev nD) : W5 m ρ c (Proc.devRef .tc main_arg2) = m ((c : Thread nD τ).loc main_arg2) := by
  read_after_opening
theorem entry0_bias2 (c : Dev nD) : W5 m ρ c (Proc.devRef .tc main_arg4) = m ((c : Thread nD τ).loc main_arg4) := by
  read_after_opening
theorem entry0_src (c : Dev nD) : W5 m ρ c (Proc.devRef .tc main_arg5) = m ((c : Thread nD τ).loc main_arg5) := by
  read_after_opening
theorem entry0_dst (c : Dev nD) : W5 m ρ c (Proc.devRef .tc main_arg6) = m ((c : Thread nD τ).loc main_arg6) := by
  read_after_opening

/-! ## Between the two calls (the sparse half of layer 1 and the activation) -/

set_option maxHeartbeats 4000000 in
/-- The second call's first operand: the activation of layer 1's sparse half, of what the first call left. -/
theorem entry1_hidden (c : Dev nD) : W8 m ρ c (Proc.devRef .tc main_v31)
    = relu (aggregate256 (W6 m ρ c (Proc.devRef .tc main_v15)) (W6 m ρ c (Proc.devRef .tc main_v12)) (W6 m ρ c (Proc.devRef .tc main_arg2))
        (W6 m ρ c (Proc.devRef .tc main_arg5)) (W6 m ρ c (Proc.devRef .tc main_arg6))) := by
  show after hostOps1_1 (after hostOps1 (W6 m ρ c)) (Proc.devRef .tc main_v31) = _
  dsimp only [hostOps1, hostOps1_1]
  after_results_simp <;> rfl

/-- These operations leave the two normaliser columns, the second weight matrix, the second bias and the index lists as
    they were. -/
theorem entry1_norm_src (c : Dev nD) : W8 m ρ c (Proc.devRef .tc main_v10) = W6 m ρ c (Proc.devRef .tc main_v10) := by
  read_after_middle
theorem entry1_norm_dst (c : Dev nD) : W8 m ρ c (Proc.devRef .tc main_v12) = W6 m ρ c (Proc.devRef .tc main_v12) := by
  read_after_middle
theorem entry1_weight2 (c : Dev nD) : W8 m ρ c (Proc.devRef .tc main_v14) = W6 m ρ c (Proc.devRef .tc main_v14) := by
  read_after_middle
theorem entry1_bias2 (c : Dev nD) : W8 m ρ c (Proc.devRef .tc main_arg4) = W6 m ρ c (Proc.devRef .tc main_arg4) := by
  read_after_middle
theorem entry1_src (c : Dev nD) : W8 m ρ c (Proc.devRef .tc main_arg5) = W6 m ρ c (Proc.devRef .tc main_arg5) := by
  read_after_middle
theorem entry1_dst (c : Dev nD) : W8 m ρ c (Proc.devRef .tc main_arg6) = W6 m ρ c (Proc.devRef .tc main_arg6) := by
  read_after_middle

/-! ## After the second call (the sparse half of layer 2) -/

set_option maxHeartbeats 4000000 in
/-- The program's result: layer 2's sparse half of what the second call left. -/
theorem result_tail (c : Dev nD) : W10 m ρ c (Proc.devRef .tc main_v47)
    = aggregate128 (W9 m ρ c (Proc.devRef .tc main_v32)) (W9 m ρ c (Proc.devRef .tc main_v12)) (W9 m ρ c (Proc.devRef .tc main_arg4))
        (W9 m ρ c (Proc.devRef .tc main_arg5)) (W9 m ρ c (Proc.devRef .tc main_arg6)) := by
  show after hostOps2 (W9 m ρ c) (Proc.devRef .tc main_v47) = _
  dsimp only [hostOps2]
  after_results_simp <;> rfl

end Cert.KernelIdeal.Glue

end
-- ==== Proof.Body1.lean ====
/-
  LAYER 1 (node features, 512 entries a node, against the 512 × 256 weight).
  What the kernel body stores for one block of 2000 nodes, read at one entry: the body scales each of the block's
  rows by that row's normaliser, narrows the result to bf16 (no change over the extended reals), and contracts it on the
  matrix unit against the whole weight block into a zero accumulator. At row `p` and column `q` that is the plain sum
  over the 512 contracted entries of (row entry · normaliser) · weight entry.
-/
import proofs.«180490_j64493228917351_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Body1

open Cert.KernelIdeal Cert.KernelIdeal.Gen Idealize.ShloMosaic Idealize.ShloMosaic.ValueIdx

/-! The operand indices of the contraction at an output index and a contraction index: the left operand is read at
    (output row, contracted entry), the right one at (contracted entry, output column). -/

theorem lhs_row (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem lhs_entry (i : S2000x256.Idx) (q : dot_S2000x512_S512x256_S2000x256_1_0_0_1_n_n.contr.Idx) :
    (dot_S2000x512_S512x256_S2000x256_1_0_0_1_n_n.lhsIdx i q 1).val = (q ⟨0, by decide⟩).val :=
  dot_S2000x512_S512x256_S2000x256_1_0_0_1_n_n.lhsIdx_val_of_single rfl i q
theorem rhs_entry (i : S2000x256.Idx) (q : dot_S2000x512_S512x256_S2000x256_1_0_0_1_n_n.contr.Idx) :
    (dot_S2000x512_S512x256_S2000x256_1_0_0_1_n_n.rhsIdx i q 0).val = (q ⟨0, by decide⟩).val :=
  dot_S2000x512_S512x256_S2000x256_1_0_0_1_n_n.rhsIdx_val_of_single rfl i q
theorem rhs_col (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- The normaliser column, broadcast along the row, read at (p, k) is the normaliser of row p. -/
theorem norm_along_row (v : Vec Ideal S2000x1 .f32) (h : S2000x1.Broadcasts S2000x512) (p : Fin 2000) (k : Fin 512) :
    broadcastTo S2000x512 v h (ix2 p k) = v (ix2 p (0 : Fin 1)) :=
  broadcastTo_apply v h (ix2 p k) (ix2 p (0 : Fin 1)) (fun a => match a with
    | ⟨0, _⟩ => by show p.val = if (2000 : Nat) = 1 then 0 else p.val; rw [if_neg (by decide)]
    | ⟨1, _⟩ => by show 0 = if (1 : Nat) = 1 then 0 else k.val; rw [if_pos rfl])

/-- The stored block at row `p`, column `q`: the sum over the contracted entries of the scaled row entry times the
    weight entry. -/
theorem block1_apply (v0 : Vec Ideal S2000x512 .f32) (v1 : Vec Ideal S2000x1 .f32) (v6 : Vec Ideal S512x256 .bf16) (p : Fin 2000) (q : Fin 256) :
    k0_pay1 (F := Ideal) v0 v1 v6 (ix2 p q) = ∑ k : Fin 512, (v0 (ix2 p k) * v1 (ix2 p (0 : Fin 1))) * v6 (ix2 k q) := by
  unfold k0_pay1
  refine (Ideal.matmul_constant_zero_apply dot_S2000x512_S512x256_S2000x256_1_0_0_1_n_n none _ _ (ix2 p q)).trans ?_
  rw [← Equiv.sum_comp (contrEquiv1 dot_S2000x512_S512x256_S2000x256_1_0_0_1_n_n 512 rfl rfl).symm]
  refine Finset.sum_congr rfl fun k _ => ?_
  have hk := contrEquiv1_symm_val dot_S2000x512_S512x256_S2000x256_1_0_0_1_n_n 512 rfl rfl k
  have el : dot_S2000x512_S512x256_S2000x256_1_0_0_1_n_n.lhsIdx (ix2 p q) ((contrEquiv1 dot_S2000x512_S512x256_S2000x256_1_0_0_1_n_n 512 rfl rfl).symm k) = ix2 p k := funext fun a => Fin.ext (by
    match a with
    | ⟨0, _⟩ => exact lhs_row _ _
    | ⟨1, _⟩ => exact (lhs_entry _ _).trans hk)
  have er : dot_S2000x512_S512x256_S2000x256_1_0_0_1_n_n.rhsIdx (ix2 p q) ((contrEquiv1 dot_S2000x512_S512x256_S2000x256_1_0_0_1_n_n 512 rfl rfl).symm k) = ix2 k q := funext fun a => Fin.ext (by
    match a with
    | ⟨0, _⟩ => exact (rhs_entry _ _).trans hk
    | ⟨1, _⟩ => exact rhs_col _ _)
  rw [el, er]
  simp only [shapeCast_self]
  show (v0 (ix2 p k) * broadcastTo S2000x512 v1 _ (ix2 p k)) * v6 (ix2 k q) = _
  rw [norm_along_row]

end Cert.KernelIdeal.Body1

end
-- ==== Proof.Spec.lean ====
/-
  The mathematics of the two dense products of the graph convolution, as functions of whole arrays, index by index,
  over the extended reals.

  Layer 1 multiplies each row `r` of the node features (50000 rows of 512 entries) by that node's normaliser
  `n r` (one number per node: the inverse square root of its clipped out-degree) and contracts the 512 entries
  against a 512 × 256 weight matrix:   `(r, c) ↦ ∑ k, (x (r, k) · n r) · w (k, c)`.
  Layer 2 does the same to the 256 hidden entries of each node against a 256 × 128 weight matrix.
  The sum is written exactly as both programs compute it (the row scaled first, then the product with the weight), so no
  law of the extended reals beyond reindexing a finite sum is needed to meet either side.
-/
import Idealize.ShloMosaic.PureOps.Ideal
import Idealize.ShloMosaic.Lib.ValueIdx

noncomputable section

open scoped BigOperators

namespace Gcn

open Idealize.ShloMosaic Idealize.ShloMosaic.ValueIdx

/-- Layer 1: node features scaled row by row, times the first weight matrix. -/
def scaledProduct1 (x : (⟨2, ![50000, 512]⟩ : Shape).Idx → EReal) (n : (⟨2, ![50000, 1]⟩ : Shape).Idx → EReal)
    (w : (⟨2, ![512, 256]⟩ : Shape).Idx → EReal) : (⟨2, ![50000, 256]⟩ : Shape).Idx → EReal :=
  fun i => ∑ k : Fin 512, (x (ix2 (i 0) k) * n (ix2 (i 0) (0 : Fin 1))) * w (ix2 k (i 1))

/-- Layer 2: hidden activations scaled row by row, times the second weight matrix. -/
def scaledProduct2 (x : (⟨2, ![50000, 256]⟩ : Shape).Idx → EReal) (n : (⟨2, ![50000, 1]⟩ : Shape).Idx → EReal)
    (w : (⟨2, ![256, 128]⟩ : Shape).Idx → EReal) : (⟨2, ![50000, 128]⟩ : Shape).Idx → EReal :=
  fun i => ∑ k : Fin 256, (x (ix2 (i 0) k) * n (ix2 (i 0) (0 : Fin 1))) * w (ix2 k (i 1))

end Gcn

end
-- ==== Proof.Region1.lean ====
/-
  LAYER 1: what the first pallas_call leaves in its result array, as one function of the arrays it finds.

  The call walks 25 grid points; point `t` takes rows 2000·t … 2000·t + 1999 of the node features and of the
  normaliser column, the whole weight matrix, and writes back rows 2000·t … 2000·t + 1999 of the result. The body's
  stored block at (p, q) is the sum over the 512 contracted entries of (row entry · normaliser) · weight entry; read through the
  blocks' offsets that is entry (2000·t + p, q) of the row-scaled product of the whole arrays. The 25 row blocks are
  disjoint and fill the 50000 rows (row r lies in block r / 2000), so the whole result array is that product.
-/
import proofs.«180490_j64493228917351_1_alg».proof.Proof.Gen.KernelIdeal.Frame
import proofs.«180490_j64493228917351_1_alg».proof.Proof.Body1
import proofs.«180490_j64493228917351_1_alg».proof.Proof.Spec
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices at grid point `t`: the features, the normaliser column and the result move down one block of
    rows per point; the weight matrix is always its one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (p, k) of the features' block at point `t` is entry (2000·t + p, k) of the features. -/
theorem features_block (c : Dev nD) (t : Fin cfg0.N) (p : Fin 2000) (k : Fin 512) (r : Fin 50000) (hr : r.val = t.val * 2000 + p.val) :
    (iblk0 V c 0 t : Vec Ideal S2000x512 .f32) (ix2 p k) = (V c main_arg0 : S50000x512.Idx → EReal) (ix2 r k) := by
  unfold iblk0
  rw [View.read_apply]
  show V c main_arg0 _ = V c main_arg0 _
  refine congrArg (V c main_arg0) (funext fun a => Fin.ext ?_)
  match a with
  | ⟨0, _⟩ => show win0_0.index t (0 : Fin 2) * 2000 + 1 * p.val = r.val; rw [(idx_facts t).1, hr]; omega
  | ⟨1, _⟩ => show win0_0.index t (1 : Fin 2) * 512 + 1 * k.val = k.val; rw [(idx_facts t).2.1]; omega

/-- Entry (p, 0) of the normaliser column's block at point `t` is the normaliser of node 2000·t + p. -/
theorem normaliser_block (c : Dev nD) (t : Fin cfg0.N) (p : Fin 2000) (r : Fin 50000) (hr : r.val = t.val * 2000 + p.val) :
    (iblk0 V c 1 t : Vec Ideal S2000x1 .f32) (ix2 p (0 : Fin 1)) = (V c main_v10 : S50000x1.Idx → EReal) (ix2 r (0 : Fin 1)) := by
  unfold iblk0
  rw [View.read_apply]
  show V c main_v10 _ = V c main_v10 _
  refine congrArg (V c main_v10) (funext fun a => Fin.ext ?_)
  match a with
  | ⟨0, _⟩ => show win0_1.index t (0 : Fin 2) * 2000 + 1 * p.val = r.val; rw [(idx_facts t).2.2.1, hr]; omega
  | ⟨1, _⟩ => show win0_1.index t (1 : Fin 2) * 1 + 1 * 0 = 0; rw [(idx_facts t).2.2.2.1]

/-- The weight's one block is the weight matrix. -/
theorem weight_block (c : Dev nD) (t : Fin cfg0.N) (k : Fin 512) (q : Fin 256) :
    (iblk0 V c 2 t : Vec Ideal S512x256 .bf16) (ix2 k q) = (V c main_v13 : S512x256.Idx → EReal) (ix2 k q) := by
  unfold iblk0
  rw [View.read_apply]
  show V c main_v13 _ = V c main_v13 _
  refine congrArg (V c main_v13) (funext fun a => Fin.ext ?_)
  match a with
  | ⟨0, _⟩ => show win0_2.index t (0 : Fin 2) * 512 + 1 * k.val = k.val; rw [(idx_facts t).2.2.2.2.1]; omega
  | ⟨1, _⟩ => show win0_2.index t (1 : Fin 2) * 256 + 1 * q.val = q.val; rw [(idx_facts t).2.2.2.2.2.1]; omega

/-- What point `t` writes back is block `t` of the row-scaled product of the arrays the call finds. -/
theorem flushed_eq (c : Dev nD) (t : Fin cfg0.N) :
    (dat0 V c).flushed 3 t = ((cfg0.win 3).blk t).view.read (Elt Ideal) (Gcn.scaledProduct1 (V c main_arg0) (V c main_v10) (V c main_v13)) := by
  show (cfg0.win 3).cut (grid0.coords t) ((dat0 V c).after 3 t) = _
  rw [after0_3]
  unfold out0_3
  rw [View.canon_unit_zero hz]
  simp only [View.ld_unit_zero (S := S2000x512) hz, View.ld_unit_zero (S := S2000x1) hz, View.ld_unit_zero (S := S512x256) hz]
  funext j
  show k0_pay1 (F := Ideal) (iblk0 V c 0 t) (iblk0 V c 1 t) (iblk0 V c 2 t) j
      = Gcn.scaledProduct1 (V c main_arg0) (V c main_v10) (V c main_v13) (((cfg0.win 3).blk t).view.emb j)
  refine (congrArg (k0_pay1 (F := Ideal) (iblk0 V c 0 t) (iblk0 V c 1 t) (iblk0 V c 2 t)) (eq_ix2 (n0 := 2000) (n1 := 256) j)).trans ?_
  refine (Body1.block1_apply (iblk0 V c 0 t) (iblk0 V c 1 t) (iblk0 V c 2 t) (j 0) (j 1)).trans ?_
  have hrow : ((((cfg0.win 3).blk t).view.emb j) 0).val = t.val * 2000 + (j 0).val := by
    show win0_3.index t (0 : Fin 2) * 2000 + 1 * (j 0).val = _
    rw [(idx_facts t).2.2.2.2.2.2.1]; omega
  have hcol : (((cfg0.win 3).blk t).view.emb j) 1 = j 1 := Fin.ext (by
    show win0_3.index t (1 : Fin 2) * 256 + 1 * (j 1).val = (j 1).val
    rw [(idx_facts t).2.2.2.2.2.2.2]; omega)
  unfold Gcn.scaledProduct1
  refine Finset.sum_congr rfl fun k _ => ?_
  rw [hcol]
  exact congrArg₂ (· * ·) (congrArg₂ (· * ·) (features_block V c t (j 0) k _ hrow) (normaliser_block V c t (j 0) _ hrow)) (weight_block V c t k (j 1))

/-- An index of the result array lies in point `t`'s block iff each coordinate is in the block's range. -/
theorem mem_blk (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v15).slice (win0_3.rect t)).set ↔ _
  rw [View.set_slice_whole, Rect.mem_set_unit]
  exact Iff.rfl

/-- Every row of the result lies in some point's block: row r in block r / 2000. -/
theorem cover (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 25 := N_0
  refine ⟨⟨(i 0).val / 2000, by rw [hN]; omega⟩, flush0_3 _, ?_⟩
  rw [mem_blk]
  intro a
  obtain ⟨-, -, -, -, -, -, e0, e1⟩ := idx_facts ⟨(i 0).val / 2000, by rw [hN]; omega⟩
  match a with
  | ⟨0, _⟩ =>
    show win0_3.index _ (0 : Fin 2) * 2000 ≤ (i 0).val ∧ (i 0).val < win0_3.index _ (0 : Fin 2) * 2000 + 2000
    rw [e0]; show (i 0).val / 2000 * 2000 ≤ (i 0).val ∧ (i 0).val < (i 0).val / 2000 * 2000 + 2000; omega
  | ⟨1, _⟩ =>
    show win0_3.index _ (1 : Fin 2) * 256 ≤ (i 1).val ∧ (i 1).val < win0_3.index _ (1 : Fin 2) * 256 + 256
    rw [e1]; omega

/-- The result array after the call: the row-scaled product of the features (window 0), the normaliser column
    (window 1) and the weight (window 2) as the call finds them. -/
theorem value (c : Dev nD) :
    (dat0 V c).arrAt 3 cfg0.N = Gcn.scaledProduct1 (V c main_arg0) (V c main_v10) (V c main_v13) :=
  (dat0 V c).arrAt_eq_of_cover 3 _ (fun t _ => flushed_eq V c t) cover

end Cert.KernelIdeal.Region1

end
-- ==== Proof.Body2.lean ====
/-
  LAYER 2 (hidden activations, 256 entries a node, against the 256 × 128 weight).
  What the kernel body stores for one block of 2000 nodes, read at one entry: the body scales each of the block's
  rows by that row's normaliser, narrows the result to bf16 (no change over the extended reals), and contracts it on the
  matrix unit against the whole weight block into a zero accumulator. At row `p` and column `q` that is the plain sum
  over the 256 contracted entries of (row entry · normaliser) · weight entry.
-/
import proofs.«180490_j64493228917351_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Body2

open Cert.KernelIdeal Cert.KernelIdeal.Gen Idealize.ShloMosaic Idealize.ShloMosaic.ValueIdx

/-! The operand indices of the contraction at an output index and a contraction index: the left operand is read at
    (output row, contracted entry), the right one at (contracted entry, output column). -/

theorem lhs_row (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_entry (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_entry (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_col (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The normaliser column, broadcast along the row, read at (p, k) is the normaliser of row p. -/
theorem norm_along_row (v : Vec Ideal S2000x1 .f32) (h : S2000x1.Broadcasts S2000x256) (p : Fin 2000) (k : Fin 256) :
    broadcastTo S2000x256 v h (ix2 p k) = v (ix2 p (0 : Fin 1)) :=
  broadcastTo_apply v h (ix2 p k) (ix2 p (0 : Fin 1)) (fun a => match a with
    | ⟨0, _⟩ => by show p.val = if (2000 : Nat) = 1 then 0 else p.val; rw [if_neg (by decide)]
    | ⟨1, _⟩ => by show 0 = if (1 : Nat) = 1 then 0 else k.val; rw [if_pos rfl])

/-- The stored block at row `p`, column `q`: the sum over the contracted entries of the scaled row entry times the
    weight entry. -/
theorem block2_apply (v0 : Vec Ideal S2000x256 .f32) (v1 : Vec Ideal S2000x1 .f32) (v6 : Vec Ideal S256x128 .bf16) (p : Fin 2000) (q : Fin 128) :
    k1_pay1 (F := Ideal) v0 v1 v6 (ix2 p q) = ∑ k : Fin 256, (v0 (ix2 p k) * v1 (ix2 p (0 : Fin 1))) * v6 (ix2 k q) := by
  unfold k1_pay1
  refine (Ideal.matmul_constant_zero_apply dot_S2000x256_S256x128_S2000x128_1_0_0_1_n_n none _ _ (ix2 p q)).trans ?_
  rw [← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k := funext fun a => Fin.ext (by
    match a with
    | ⟨0, _⟩ => exact lhs_row _ _
    | ⟨1, _⟩ => exact (lhs_entry _ _).trans hk)
  have er : dot_S2000x256_S256x128_S2000x128_1_0_0_1_n_n.rhsIdx (ix2 p q) ((contrEquiv1 dot_S2000x256_S256x128_S2000x128_1_0_0_1_n_n 256 rfl rfl).symm k) = ix2 k q := funext fun a => Fin.ext (by
    match a with
    | ⟨0, _⟩ => exact (rhs_entry _ _).trans hk
    | ⟨1, _⟩ => exact rhs_col _ _)
  rw [el, er]
  simp only [shapeCast_self]
  show (v0 (ix2 p k) * broadcastTo S2000x256 v1 _ (ix2 p k)) * v6 (ix2 k q) = _
  rw [norm_along_row]

end Cert.KernelIdeal.Body2

end
-- ==== Proof.Region2.lean ====
/-
  LAYER 2: what the second pallas_call leaves in its result array, as one function of the arrays it finds.

  The call walks 25 grid points; point `t` takes rows 2000·t … 2000·t + 1999 of the hidden activations and of the
  normaliser column, the whole weight matrix, and writes back rows 2000·t … 2000·t + 1999 of the result. The body's
  stored block at (p, q) is the sum over the 256 contracted entries of (row entry · normaliser) · weight entry; read through the
  blocks' offsets that is entry (2000·t + p, q) of the row-scaled product of the whole arrays. The 25 row blocks are
  disjoint and fill the 50000 rows (row r lies in block r / 2000), so the whole result array is that product.
-/
import proofs.«180490_j64493228917351_1_alg».proof.Proof.Gen.KernelIdeal.Frame
import proofs.«180490_j64493228917351_1_alg».proof.Proof.Body2
import proofs.«180490_j64493228917351_1_alg».proof.Proof.Spec
import Idealize.ShloMosaic.Lib.Pipeline.Value

set_option maxRecDepth 16384

noncomputable section

open scoped BigOperators

namespace Cert.KernelIdeal.Region2

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices at grid point `t`: the activations, the normaliser column and the result move down one block of
    rows per point; the weight matrix is always its one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (p, k) of the activations' block at point `t` is entry (2000·t + p, k) of the activations. -/
theorem activations_block (c : Dev nD) (t : Fin cfg1.N) (p : Fin 2000) (k : Fin 256) (r : Fin 50000) (hr : r.val = t.val * 2000 + p.val) :
    (iblk1 V c 0 t : Vec Ideal S2000x256 .f32) (ix2 p k) = (V c main_v31 : S50000x256.Idx → EReal) (ix2 r k) := by
  unfold iblk1
  rw [View.read_apply]
  show V c main_v31 _ = V c main_v31 _
  refine congrArg (V c main_v31) (funext fun a => Fin.ext ?_)
  match a with
  | ⟨0, _⟩ => show win1_0.index t (0 : Fin 2) * 2000 + 1 * p.val = r.val; rw [(idx_facts t).1, hr]; omega
  | ⟨1, _⟩ => show win1_0.index t (1 : Fin 2) * 256 + 1 * k.val = k.val; rw [(idx_facts t).2.1]; omega

/-- Entry (p, 0) of the normaliser column's block at point `t` is the normaliser of node 2000·t + p. -/
theorem normaliser_block (c : Dev nD) (t : Fin cfg1.N) (p : Fin 2000) (r : Fin 50000) (hr : r.val = t.val * 2000 + p.val) :
    (iblk1 V c 1 t : Vec Ideal S2000x1 .f32) (ix2 p (0 : Fin 1)) = (V c main_v10 : S50000x1.Idx → EReal) (ix2 r (0 : Fin 1)) := by
  unfold iblk1
  rw [View.read_apply]
  show V c main_v10 _ = V c main_v10 _
  refine congrArg (V c main_v10) (funext fun a => Fin.ext ?_)
  match a with
  | ⟨0, _⟩ => show win1_1.index t (0 : Fin 2) * 2000 + 1 * p.val = r.val; rw [(idx_facts t).2.2.1, hr]; omega
  | ⟨1, _⟩ => show win1_1.index t (1 : Fin 2) * 1 + 1 * 0 = 0; rw [(idx_facts t).2.2.2.1]

/-- The weight's one block is the weight matrix. -/
theorem weight_block (c : Dev nD) (t : Fin cfg1.N) (k : Fin 256) (q : Fin 128) :
    (iblk1 V c 2 t : Vec Ideal S256x128 .bf16) (ix2 k q) = (V c main_v14 : S256x128.Idx → EReal) (ix2 k q) := by
  unfold iblk1
  rw [View.read_apply]
  show V c main_v14 _ = V c main_v14 _
  refine congrArg (V c main_v14) (funext fun a => Fin.ext ?_)
  match a with
  | ⟨0, _⟩ => show win1_2.index t (0 : Fin 2) * 256 + 1 * k.val = k.val; rw [(idx_facts t).2.2.2.2.1]; omega
  | ⟨1, _⟩ => show win1_2.index t (1 : Fin 2) * 128 + 1 * q.val = q.val; rw [(idx_facts t).2.2.2.2.2.1]; omega

/-- What point `t` writes back is block `t` of the row-scaled product of the arrays the call finds. -/
theorem flushed_eq (c : Dev nD) (t : Fin cfg1.N) :
    (dat1 V c).flushed 3 t = ((cfg1.win 3).blk t).view.read (Elt Ideal) (Gcn.scaledProduct2 (V c main_v31) (V c main_v10) (V c main_v14)) := by
  show (cfg1.win 3).cut (grid1.coords t) ((dat1 V c).after 3 t) = _
  rw [after1_3]
  unfold out1_3
  rw [View.canon_unit_zero hz]
  simp only [View.ld_unit_zero (S := S2000x256) hz, View.ld_unit_zero (S := S2000x1) hz, View.ld_unit_zero (S := S256x128) hz]
  funext j
  show k1_pay1 (F := Ideal) (iblk1 V c 0 t) (iblk1 V c 1 t) (iblk1 V c 2 t) j
      = Gcn.scaledProduct2 (V c main_v31) (V c main_v10) (V c main_v14) (((cfg1.win 3).blk t).view.emb j)
  refine (congrArg (k1_pay1 (F := Ideal) (iblk1 V c 0 t) (iblk1 V c 1 t) (iblk1 V c 2 t)) (eq_ix2 (n0 := 2000) (n1 := 128) j)).trans ?_
  refine (Body2.block2_apply (iblk1 V c 0 t) (iblk1 V c 1 t) (iblk1 V c 2 t) (j 0) (j 1)).trans ?_
  have hrow : ((((cfg1.win 3).blk t).view.emb j) 0).val = t.val * 2000 + (j 0).val := by
    show win1_3.index t (0 : Fin 2) * 2000 + 1 * (j 0).val = _
    rw [(idx_facts t).2.2.2.2.2.2.1]; omega
  have hcol : (((cfg1.win 3).blk t).view.emb j) 1 = j 1 := Fin.ext (by
    show win1_3.index t (1 : Fin 2) * 128 + 1 * (j 1).val = (j 1).val
    rw [(idx_facts t).2.2.2.2.2.2.2]; omega)
  unfold Gcn.scaledProduct2
  refine Finset.sum_congr rfl fun k _ => ?_
  rw [hcol]
  exact congrArg₂ (· * ·) (congrArg₂ (· * ·) (activations_block V c t (j 0) k _ hrow) (normaliser_block V c t (j 0) _ hrow)) (weight_block V c t k (j 1))

/-- An index of the result array lies in point `t`'s block iff each coordinate is in the block's range. -/
theorem mem_blk (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v32).slice (win1_3.rect t)).set ↔ _
  rw [View.set_slice_whole, Rect.mem_set_unit]
  exact Iff.rfl

/-- Every row of the result lies in some point's block: row r in block r / 2000. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_3 _, ?_⟩
  rw [mem_blk]
  intro a
  obtain ⟨-, -, -, -, -, -, e0, e1⟩ := idx_facts ⟨(i 0).val / 2000, by rw [hN]; omega⟩
  match a with
  | ⟨0, _⟩ =>
    show win1_3.index _ (0 : Fin 2) * 2000 ≤ (i 0).val ∧ (i 0).val < win1_3.index _ (0 : Fin 2) * 2000 + 2000
    rw [e0]; show (i 0).val / 2000 * 2000 ≤ (i 0).val ∧ (i 0).val < (i 0).val / 2000 * 2000 + 2000; omega
  | ⟨1, _⟩ =>
    show win1_3.index _ (1 : Fin 2) * 128 ≤ (i 1).val ∧ (i 1).val < win1_3.index _ (1 : Fin 2) * 128 + 128
    rw [e1]; omega

/-- The result array after the call: the row-scaled product of the activations (window 0), the normaliser column
    (window 1) and the weight (window 2) as the call finds them. -/
theorem value (c : Dev nD) :
    (dat1 V c).arrAt 3 cfg1.N = Gcn.scaledProduct2 (V c main_v31) (V c main_v10) (V c main_v14) :=
  (dat1 V c).arrAt_eq_of_cover 3 _ (fun t _ => flushed_eq V c t) cover

end Cert.KernelIdeal.Region2

end
-- ==== Proof.KernelValue.lean ====
/-
  The kernel program's result as ONE function of its arguments, over the extended reals.

  Following the buffers through the program: the first call leaves the row-scaled product of the features, the
  out-degree normaliser and the first weight (narrowing the weight to bf16 changes nothing over the extended reals); the
  host gathers, sums, scales by the in-degree normaliser, adds the bias and clips at zero; the second call leaves the
  row-scaled product of that with the second weight; the host aggregates once more. That composite is `network`.
-/
import proofs.«180490_j64493228917351_1_alg».proof.Proof.KernelRun
import proofs.«180490_j64493228917351_1_alg».proof.Proof.Glue
import proofs.«180490_j64493228917351_1_alg».proof.Proof.Region1
import proofs.«180490_j64493228917351_1_alg».proof.Proof.Region2

set_option maxRecDepth 16384

noncomputable section

namespace Cert.KernelIdeal.Net

open Cert.KernelIdeal Cert.KernelIdeal.Gen Cert.KernelIdeal.Glue Idealize.ShloMosaic Idealize.ShloMosaic.TcCoe Idealize.SL.Sem

/-- The two-layer graph convolution: out = aggregate (product2 (relu (aggregate (product1 x ns w1) nd b1)) ns w2) nd b2. -/
def network (x : (⟨S50000x512, .f32⟩ : BufTy).Contents (Elt Ideal)) (w1 : (⟨S512x256, .f32⟩ : BufTy).Contents (Elt Ideal))
    (b1 : (⟨S256, .f32⟩ : BufTy).Contents (Elt Ideal)) (w2 : (⟨S256x128, .f32⟩ : BufTy).Contents (Elt Ideal))
    (b2 : (⟨S128, .f32⟩ : BufTy).Contents (Elt Ideal)) (src dst : (⟨S800000, .i32⟩ : BufTy).Contents (Elt Ideal)) :
    (⟨S50000x128, .f32⟩ : BufTy).Contents (Elt Ideal) :=
  aggregate128
    (Gcn.scaledProduct2
      (relu (aggregate256 (Gcn.scaledProduct1 x (degreeNorm src) w1) (degreeNorm dst) b1 src dst))
      (degreeNorm src) w2)
    (degreeNorm dst) b2 src dst

variable (m : (ℓ : Loc nD τ sig) → Buf (Elt Ideal) ℓ) (ρ : Dev nD → PrngReg)

/-- What the first call leaves in its result array. -/
theorem first_product (c : Dev nD) : W6 m ρ c (Proc.devRef .tc main_v15)
    = Gcn.scaledProduct1 (m ((c : Thread nD τ).loc main_arg0)) (degreeNorm (m ((c : Thread nD τ).loc main_arg5))) (m ((c : Thread nD τ).loc main_arg1)) := by
  refine (W6_arr m ρ c 3).trans ?_
  refine (Region1.value (V5 m ρ) c).trans ?_
  show Gcn.scaledProduct1 (W5 m ρ c (Proc.devRef .tc main_arg0)) (W5 m ρ c (Proc.devRef .tc main_v10)) (W5 m ρ c (Proc.devRef .tc main_v13)) = _
  rw [entry0_features, entry0_norm_src, entry0_weight1]
  rfl

/-- The second call's first operand: layer 1's output. -/
theorem hidden (c : Dev nD) : W8 m ρ c (Proc.devRef .tc main_v31)
    = relu (aggregate256 (Gcn.scaledProduct1 (m ((c : Thread nD τ).loc main_arg0)) (degreeNorm (m ((c : Thread nD τ).loc main_arg5))) (m ((c : Thread nD τ).loc main_arg1)))
        (degreeNorm (m ((c : Thread nD τ).loc main_arg6))) (m ((c : Thread nD τ).loc main_arg2)) (m ((c : Thread nD τ).loc main_arg5)) (m ((c : Thread nD τ).loc main_arg6))) := by
  rw [entry1_hidden, first_product,
    W6_of_ne m ρ c main_v12 (by decide), W6_of_ne m ρ c main_arg2 (by decide), W6_of_ne m ρ c main_arg5 (by decide), W6_of_ne m ρ c main_arg6 (by decide),
    entry0_norm_dst, entry0_bias1, entry0_src, entry0_dst]

/-- The first call only reads the out-degree normaliser (its window 1): the array is as it was. -/
theorem norm_src_kept (c : Dev nD) : W6 m ρ c (Proc.devRef .tc main_v10) = W5 m ρ c (Proc.devRef .tc main_v10) :=
  (W6_arr m ρ c 1).trans (((dat0 (V5 m ρ) c).arrAt_in 1 rfl _).trans (A_eq0 (V5 m ρ) c 1))

/-- What the second call leaves in its result array. -/
theorem second_product (c : Dev nD) : W9 m ρ c (Proc.devRef .tc main_v32)
    = Gcn.scaledProduct2 (W8 m ρ c (Proc.devRef .tc main_v31)) (degreeNorm (m ((c : Thread nD τ).loc main_arg5))) (m ((c : Thread nD τ).loc main_arg3)) := by
  refine (W9_arr m ρ c 3).trans ?_
  refine (Region2.value (V8 m ρ) c).trans ?_
  show Gcn.scaledProduct2 (W8 m ρ c (Proc.devRef .tc main_v31)) (W8 m ρ c (Proc.devRef .tc main_v10)) (W8 m ρ c (Proc.devRef .tc main_v14)) = _
  rw [entry1_norm_src, entry1_weight2, norm_src_kept, W6_of_ne m ρ c main_v14 (by decide), entry0_norm_src, entry0_weight2]
  rfl

/-- The program's result buffer after the last stretch of host operations is the network of the arguments. -/
theorem result (c : Dev nD) : W10 m ρ c (Proc.devRef .tc main_v47)
    = network (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  rw [result_tail, second_product, hidden,
    W9_of_ne m ρ c main_v12 (by decide), W9_of_ne m ρ c main_arg4 (by decide), W9_of_ne m ρ c main_arg5 (by decide), W9_of_ne m ρ c main_arg6 (by decide),
    entry1_norm_dst, entry1_bias2, entry1_src, entry1_dst,
    W6_of_ne m ρ c main_v12 (by decide), W6_of_ne m ρ c main_arg4 (by decide), W6_of_ne m ρ c main_arg5 (by decide), W6_of_ne m ρ c main_arg6 (by decide),
    entry0_norm_dst, entry0_bias2, entry0_src, entry0_dst]
  rfl

/-- The kernel program's run: every weakly fair execution terminates with the result buffer at the network of the
    arguments and the arguments unchanged. -/
theorem run : θ_run defs (onTc (τ := τ) (main (F := Ideal))) ⟨m, fun _ => 0, ρ⟩ (fun r => ∀ c : Dev nD,
      r.2.mem ((c.tc : Thread nD τ).loc main_v47) = network (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (result m ρ c), (h c).2⟩) (run_result m ρ)

end Cert.KernelIdeal.Net

end
-- ==== Proof.RefStages.lean ====
/-
  The reference's two dense products, read as the same index-by-index sums as the kernel's (Spec).

  jnp's `(x * norm_src) @ W` is a broadcast of the normaliser column along each row, a pointwise product and one
  `dot_general` contracting the row's entries against the weight's rows. Over the extended reals the `dot_general` at
  (r, c) is the sum over the contracted entries k of left (r, k) · right (k, c), and left (r, k) is x (r, k) · n r.
-/
import proofs.«180490_j64493228917351_1_alg».proof.Defs
import proofs.«180490_j64493228917351_1_alg».proof.Proof.Gen.ReferenceIdeal.Run
import proofs.«180490_j64493228917351_1_alg».proof.Proof.Gen.ReferenceIdeal.Read
import proofs.«180490_j64493228917351_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The normaliser column broadcast along a row of 512 entries, read at (r, k), is the normaliser of row r. -/
theorem norm_along_row512 (n : FVec Ideal S50000x1 .f32) (r : Fin 50000) (k : Fin 512) :
    broadcastInDim S50000x512 ![0, 1] bcast_S50000x1_S50000x512_0_1 n (ix2 r k) = n (ix2 r (0 : Fin 1)) :=
  broadcastInDim_apply _ bcast_S50000x1_S50000x512_0_1 n (ix2 r k) (ix2 r (0 : Fin 1)) (fun a => match a with
    | ⟨0, _⟩ => by show r.val = if (50000 : Nat) = 1 then 0 else r.val; rw [if_neg (by decide)]
    | ⟨1, _⟩ => by show 0 = if (1 : Nat) = 1 then 0 else k.val; rw [if_pos rfl])

/-- The same along a row of 256 entries. -/
theorem norm_along_row256 (n : FVec Ideal S50000x1 .f32) (r : Fin 50000) (k : Fin 256) :
    broadcastInDim S50000x256 ![0, 1] bcast_S50000x1_S50000x256_0_1 n (ix2 r k) = n (ix2 r (0 : Fin 1)) :=
  broadcastInDim_apply _ bcast_S50000x1_S50000x256_0_1 n (ix2 r k) (ix2 r (0 : Fin 1)) (fun a => match a with
    | ⟨0, _⟩ => by show r.val = if (50000 : Nat) = 1 then 0 else r.val; rw [if_neg (by decide)]
    | ⟨1, _⟩ => by show 0 = if (1 : Nat) = 1 then 0 else k.val; rw [if_pos rfl])

/-- Layer 1's `(x * norm_src) @ W1` is the row-scaled product. -/
theorem product1_eq (x : FVec Ideal S50000x512 .f32) (n : FVec Ideal S50000x1 .f32)
    (w : FVec Ideal S512x256 .f32) :
    Host.dotGeneral (F := Ideal) dot_S50000x512_S512x256_S50000x256_1_0_0_1_n_n none (mulf x (broadcastInDim S50000x512 ![0, 1] bcast_S50000x1_S50000x512_0_1 n)) w
      = (Gcn.scaledProduct1 x n w : FVec Ideal S50000x256 .f32) := by
  funext i
  simp only [Host.dotGeneral]
  rw [Ideal.dotGeneral_apply, ← Equiv.sum_comp (contrEquiv1 dot_S50000x512_S512x256_S50000x256_1_0_0_1_n_n 512 rfl rfl).symm]
  unfold Gcn.scaledProduct1
  refine Finset.sum_congr rfl fun k _ => ?_
  have hk := contrEquiv1_symm_val dot_S50000x512_S512x256_S50000x256_1_0_0_1_n_n 512 rfl rfl k
  have el : dot_S50000x512_S512x256_S50000x256_1_0_0_1_n_n.lhsIdx i ((contrEquiv1 dot_S50000x512_S512x256_S50000x256_1_0_0_1_n_n 512 rfl rfl).symm k) = ix2 (i 0) k := funext fun a => Fin.ext (by
    match a with
    | ⟨0, _⟩ => exact lhs_main_v15_0 _ _
    | ⟨1, _⟩ => exact (lhs_main_v15_1 _ _).trans hk)
  have er : dot_S50000x512_S512x256_S50000x256_1_0_0_1_n_n.rhsIdx i ((contrEquiv1 dot_S50000x512_S512x256_S50000x256_1_0_0_1_n_n 512 rfl rfl).symm k) = ix2 k (i 1) := funext fun a => Fin.ext (by
    match a with
    | ⟨0, _⟩ => exact (rhs_main_v15_0 _ _).trans hk
    | ⟨1, _⟩ => exact rhs_main_v15_1 _ _)
  rw [el, er]
  exact congrArg (fun z => x (ix2 (i 0) k) * z * w (ix2 k (i 1))) (norm_along_row512 n (i 0) k)

/-- Layer 2's `(h * norm_src) @ W2` is the row-scaled product. -/
theorem product2_eq (x : FVec Ideal S50000x256 .f32) (n : FVec Ideal S50000x1 .f32)
    (w : FVec Ideal S256x128 .f32) :
    Host.dotGeneral (F := Ideal) dot_S50000x256_S256x128_S50000x128_1_0_0_1_n_n none (mulf x (broadcastInDim S50000x256 ![0, 1] bcast_S50000x1_S50000x256_0_1 n)) w
      = (Gcn.scaledProduct2 x n w : FVec Ideal S50000x128 .f32) := by
  funext i
  simp only [Host.dotGeneral]
  rw [Ideal.dotGeneral_apply, ← Equiv.sum_comp (contrEquiv1 dot_S50000x256_S256x128_S50000x128_1_0_0_1_n_n 256 rfl rfl).symm]
  unfold Gcn.scaledProduct2
  refine Finset.sum_congr rfl fun k _ => ?_
  have hk := contrEquiv1_symm_val dot_S50000x256_S256x128_S50000x128_1_0_0_1_n_n 256 rfl rfl k
  have el : dot_S50000x256_S256x128_S50000x128_1_0_0_1_n_n.lhsIdx i ((contrEquiv1 dot_S50000x256_S256x128_S50000x128_1_0_0_1_n_n 256 rfl rfl).symm k) = ix2 (i 0) k := funext fun a => Fin.ext (by
    match a with
    | ⟨0, _⟩ => exact lhs_main_v34_0 _ _
    | ⟨1, _⟩ => exact (lhs_main_v34_1 _ _).trans hk)
  have er : dot_S50000x256_S256x128_S50000x128_1_0_0_1_n_n.rhsIdx i ((contrEquiv1 dot_S50000x256_S256x128_S50000x128_1_0_0_1_n_n 256 rfl rfl).symm k) = ix2 k (i 1) := funext fun a => Fin.ext (by
    match a with
    | ⟨0, _⟩ => exact (rhs_main_v34_0 _ _).trans hk
    | ⟨1, _⟩ => exact rhs_main_v34_1 _ _)
  rw [el, er]
  exact congrArg (fun z => x (ix2 (i 0) k) * z * w (ix2 k (i 1))) (norm_along_row256 n (i 0) k)

end Cert.ReferenceIdeal.RefValue

end
-- ==== Proof.Bridge.lean ====
/-
  The reference computes the same network.

  The reference's result is one composed term of its arguments. Its two `dot_general`s are the two row-scaled products
  (RefStages); everything around them — the degree counts, their clipping and inverse square roots, the gathers and
  scatter-adds, the scalings, biases and the activation — is, operation for operation, what the kernel program's host
  side does (Glue), so with the products rewritten the two terms coincide.
-/
import proofs.«180490_j64493228917351_1_alg».proof.Proof.KernelValue
import proofs.«180490_j64493228917351_1_alg».proof.Proof.RefStages

set_option maxRecDepth 16384

noncomputable section

namespace Cert.Proof.Bridge

open Idealize.ShloMosaic Idealize.ShloMosaic.TcCoe Idealize.SL.Sem

/-- The reference's result term is the network of the reference's arguments. -/
theorem reference_value (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_out0 (F := Ideal) m' c
      = Cert.KernelIdeal.Net.network (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) := by
  unfold Cert.ReferenceIdeal.Value.res_out0 Cert.ReferenceIdeal.Value.res_main_v49
  rw [Cert.ReferenceIdeal.RefValue.product1_eq, Cert.ReferenceIdeal.RefValue.product2_eq]
  rfl

end Cert.Proof.Bridge

end
-- ==== Proof.lean ====
/-
  The certificate: a two-layer graph convolution (DGL GraphConv, norm='both') whose two dense products
  `(x · norm_src) @ W` run as Pallas kernels over blocks of 2000 nodes with bf16 operands, against the plain jnp reference.

  Over the extended reals both programs compute
      out = aggregate (product2 (relu (aggregate (product1 x ns W1) nd b1)) ns W2) nd b2,
  with ns, nd the inverse square roots of the clipped out- and in-degrees, product the row-scaled matrix product and
  aggregate the gather / scatter-add over the edges followed by the in-degree scaling and the bias. The host operations
  around the products are the same in both programs; the kernel's products differ from the reference's only in the bf16
  narrowing (the identity over the extended reals) and in being computed 2000 rows at a time, each row's sum being the very
  sum the reference's `dot_general` takes. No law beyond reindexing a finite sum is used, so the precondition (finite
  inputs) is never opened.

  Spec: the two products as index-by-index sums. Body1/2: a kernel block at an entry. Region1/2: a call's result array.
  KernelRun: the kernel program's run with the result buffer named. Glue: the host side between the calls. KernelValue:
  the kernel program's result as the network of its arguments. RefStages: the reference's `dot_general`s as the same sums.
  Bridge: the reference's result as the same network.
-/
import proofs.«180490_j64493228917351_1_alg».proof.Defs
import proofs.«180490_j64493228917351_1_alg».proof.Proof.Gen.Kernel
import proofs.«180490_j64493228917351_1_alg».proof.Proof.Gen.Kernel.Skeleton
import proofs.«180490_j64493228917351_1_alg».proof.Proof.Gen.Kernel.Launch
import proofs.«180490_j64493228917351_1_alg».proof.Proof.Gen.Kernel.Points
import proofs.«180490_j64493228917351_1_alg».proof.Proof.Gen.Kernel.Frame
import proofs.«180490_j64493228917351_1_alg».proof.Proof.Gen.KernelIdeal
import proofs.«180490_j64493228917351_1_alg».proof.Proof.Gen.KernelIdeal.Skeleton
import proofs.«180490_j64493228917351_1_alg».proof.Proof.Gen.KernelIdeal.Launch
import proofs.«180490_j64493228917351_1_alg».proof.Proof.Gen.KernelIdeal.Points
import proofs.«180490_j64493228917351_1_alg».proof.Proof.Gen.KernelIdeal.Frame
import proofs.«180490_j64493228917351_1_alg».proof.Proof.Gen.ReferenceIdeal
import proofs.«180490_j64493228917351_1_alg».proof.Proof.Gen.ReferenceIdeal.Run
import proofs.«180490_j64493228917351_1_alg».proof.Proof.Gen.Pre_finite_inputs
import proofs.«180490_j64493228917351_1_alg».proof.Proof.KernelValue
import proofs.«180490_j64493228917351_1_alg».proof.Proof.RefStages
import proofs.«180490_j64493228917351_1_alg».proof.Proof.Bridge
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- The reference is host operations only: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the network of those arguments in their
    result buffers. -/
theorem algebraic : Cert.algebraic_KernelIdeal_ReferenceIdeal := by
  intro m ρ m' ρ' _ hagree
  refine ⟨fun c => Cert.KernelIdeal.Net.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  refine (Cert.Proof.Bridge.reference_value m' c).trans ?_
  rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
